-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S16384x1 : Shape := ⟨2, ![16384, 1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) (main_arg3 : IVec S16384x1 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S256x4096 : Shape := ⟨2, ![256, 4096]⟩
abbrev S256x1 : Shape := ⟨2, ![256, 1]⟩
abbrev S256x64 : Shape := ⟨2, ![256, 64]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S16384x1, .i32⟩
  | .hbm, ⟨4, _⟩ => ⟨S1x64, .f32⟩
  | .hbm, ⟨5, _⟩ => ⟨S16384x64, .f32⟩
  | .local _ .vmem, ⟨0, _⟩ => ⟨S256x4096, .f32⟩
  | .local _ .vmem, ⟨1, _⟩ => ⟨S256x4096, .f32⟩
  | .local _ .vmem, ⟨2, _⟩ => ⟨S64x4096, .f32⟩
  | .local _ .vmem, ⟨3, _⟩ => ⟨S1x64, .f32⟩
  | .local _ .vmem, ⟨4, _⟩ => ⟨S256x1, .i32⟩
  | .local _ .vmem, ⟨5, _⟩ => ⟨S256x1, .i32⟩
  | .local _ .vmem, ⟨6, _⟩ => ⟨S256x64, .f32⟩
  | .local _ .vmem, ⟨7, _⟩ => ⟨S256x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  natLt_1_32 : 1 < 32
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x4096_S64x4096_S256x64_1_1_0_0_n_n_wf : DotDims.WF S256x4096 S64x4096 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .i32 = 32 ∨ (Rect.block (s := S16384x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S16384x1 : Shape := ⟨2, ![16384, 1]⟩
abbrev S4096 : Shape := ⟨1, ![4096]⟩
abbrev S16384x1x1 : Shape := ⟨3, ![16384, 1, 1]⟩
abbrev S1x1x4096 : Shape := ⟨3, ![1, 1, 4096]⟩
abbrev S16384x1x4096 : Shape := ⟨3, ![16384, 1, 4096]⟩
abbrev S_ : Shape := ⟨0, ![]⟩
abbrev S4096x64 : Shape := ⟨2, ![4096, 64]⟩
abbrev S16384x64 : Shape := ⟨2, ![16384, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S16384x1, .i32⟩
  | .hbm, ⟨4, _⟩ => ⟨S4096, .i32⟩
  | .hbm, ⟨5, _⟩ => ⟨S16384x1x1, .i32⟩
  | .hbm, ⟨6, _⟩ => ⟨S1x1x4096, .i32⟩
  | .hbm, ⟨7, _⟩ => ⟨S16384x1x4096, .i32⟩
  | .hbm, ⟨8, _⟩ => ⟨S16384x1x4096, .i32⟩
  | .hbm, ⟨9, _⟩ => ⟨S16384x1x4096, .i1⟩
  | .hbm, ⟨10, _⟩ => ⟨S1x1x4096, .i32⟩
  | .hbm, ⟨11, _⟩ => ⟨S_, .i32⟩
  | .hbm, ⟨12, _⟩ => ⟨S16384x1x1, .i32⟩
  | .hbm, ⟨13, _⟩ => ⟨S16384x1x1, .i32⟩
  | .hbm, ⟨14, _⟩ => ⟨S16384x1x4096, .i32⟩
  | .hbm, ⟨15, _⟩ => ⟨S16384x1x4096, .i32⟩
  | .hbm, ⟨16, _⟩ => ⟨S16384x1x4096, .i1⟩
  | .hbm, ⟨17, _⟩ => ⟨S16384x1x4096, .i1⟩
  | .hbm, ⟨18, _⟩ => ⟨S_, .i1⟩
  | .hbm, ⟨19, _⟩ => ⟨S16384x4096, .i1⟩
  | .hbm, ⟨20, _⟩ => ⟨S16384x4096, .i1⟩
  | .hbm, ⟨21, _⟩ => ⟨S16384x4096, .f32⟩
  | .hbm, ⟨22, _⟩ => ⟨S16384x4096, .f32⟩
  | .hbm, ⟨23, _⟩ => ⟨S4096x64, .f32⟩
  | .hbm, ⟨24, _⟩ => ⟨S16384x64, .f32⟩
  | .hbm, ⟨25, _⟩ => ⟨S1x64, .f32⟩
  | .hbm, ⟨26, _⟩ => ⟨S16384x64, .f32⟩
  | .hbm, ⟨27, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S16384x1_S16384x1x1_0_1 : S16384x1.BroadcastsInDim S16384x1x1 (![0, 1] : Fin 2 → Fin S16384x1x1.rank)
  bcast_S4096_S1x1x4096_2 : S4096.BroadcastsInDim S1x1x4096 (![2] : Fin 1 → Fin S1x1x4096.rank)
  bcast_S1x1x4096_S16384x1x4096_0_1_2 : S1x1x4096.BroadcastsInDim S16384x1x4096 (![0, 1, 2] : Fin 3 → Fin S16384x1x4096.rank)
  bcast_S16384x1x1_S16384x1x4096_0_1_2 : S16384x1x1.BroadcastsInDim S16384x1x4096 (![0, 1, 2] : Fin 3 → Fin S16384x1x4096.rank)
  bcast_S_S16384x1x1 : S_.BroadcastsInDim S16384x1x1 (![] : Fin 0 → Fin S16384x1x1.rank)
  reducesTo_S16384x1x4096_S16384x4096_d1 : S16384x1x4096.ReducesTo [1] S16384x4096
  h_S_ : 0 < S_.numel
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.DroppedSpanSpec.lean ====
/-
  A linear layer applied to rows from which one contiguous span of channels has been dropped.

  Row `r` of `x` has 4096 channels and a start word `s = starts[r, 0]`. Channel `k` is DROPPED when
  `s ≤ k` and `k < s + 819`, both comparisons those of signed 32-bit words and `s + 819` the 32-bit word sum
  (it may wrap; the two programs form the same words, so no range of `s` is asked for). The keep factor is
  `0` on a dropped channel and `1` elsewhere, and the result is, on the extended reals,

      out[r, j] = (∑ k, x[r, k] · kept(s, k) · W[j, k]) + b[j].

  The summands are the same on both sides, term by term, so no law of the extended reals beyond the sum's own
  definition is used and finiteness of the inputs is never needed.
-/
import Idealize.ShloMosaic.PureOps.Ideal
import Idealize.ShloMosaic.Lib.ValueIdx
import Idealize.ShloMosaic.Lib.KernelVsHost

noncomputable section

namespace DroppedSpan

open Idealize.ShloMosaic Idealize.ShloMosaic.ValueIdx

/-- Channel `k` lies in the dropped span that starts at the word `s`: `s ≤ k` and `k < s + 819` as signed words. -/
def dropped (s : BitVec 32) (k : Nat) : BitVec 1 :=
  IntOp.andi (IntOp.cmpi .sge (BitVec.ofNat 32 k) s) (IntOp.cmpi .slt (BitVec.ofNat 32 k) (IntOp.addi s 819#32))

/-- The keep factor of channel `k`: the complemented bit read as a number, `0` or `1`. -/
def kept (s : BitVec 32) (k : Nat) : EReal := (((~~~ dropped s k).toNat : ℝ) : EReal)

/-- One spelling of the keep factor: the bit complemented by exclusive-or with `1`, widened to a word and read signed. -/
theorem kept_of_xor_widened (s : BitVec 32) (k : Nat) :
    FloatOps.sitofp (F := Ideal) .f32 ((IntOp.xori (dropped s k) 1#1).setWidth 32) = kept s k := by
  show (((((IntOp.xori (dropped s k) 1#1).setWidth 32).toInt : ℤ) : ℝ) : EReal) = (((~~~ dropped s k).toNat : ℝ) : EReal)
  rw [toInt_setWidth_bit, xori_one_eq_not]
  norm_cast

/-- The other spelling: the complemented bit read unsigned. -/
theorem kept_of_not (s : BitVec 32) (k : Nat) :
    FloatOps.uitofp (F := Ideal) .f32 (~~~ dropped s k) = kept s k := rfl

/-- An or-fold over ONE value from the neutral bit is that value. -/
theorem or_fold_one (v : Fin 1 → BitVec 1) :
    (Finset.univ : Finset (Fin 1)).fold IntOp.ori 0#1 v = v 0 := by
  rw [show (Finset.univ : Finset (Fin 1)) = {0} from rfl, Finset.fold_singleton]
  show v 0 ||| 0#1 = v 0
  exact BitVec.or_zero

/-- THE RESULT: each row of `x` with its dropped span zeroed, times `Wᵀ`, plus the bias. -/
def linear (x : (⟨2, ![16384, 4096]⟩ : Shape).Idx → EReal) (W : (⟨2, ![64, 4096]⟩ : Shape).Idx → EReal)
    (b : (⟨1, ![64]⟩ : Shape).Idx → EReal) (s : (⟨2, ![16384, 1]⟩ : Shape).Idx → BitVec 32) :
    (⟨2, ![16384, 64]⟩ : Shape).Idx → EReal :=
  fun i => (∑ k : Fin 4096, x (ix2 (i 0 : Fin 16384) k) * kept (s (ix2 (i 0 : Fin 16384) (0 : Fin 1))) k.val
      * W (ix2 (i 1 : Fin 64) k)) + b (ix1 (i 1 : Fin 64))

end DroppedSpan

end
-- ==== Proof.TileValue.lean ====
/-
  What the body stores at one grid point, read at an index.

  A grid point holds 256 rows of `x` (all 4096 channels), all of `W`, the bias as one row, and the 256 start words of
  its rows. The body lays the channel number along each row (an iota on axis 1), compares it with the row's start
  word and with the start word plus 819, complements the conjunction, converts the bit to a float, multiplies `x`,
  and contracts channels against `W` (axis 1 of both) into a zero accumulator before adding the bias row.
  The changes of float format on the way are the identity on the extended reals. Entry `(p, q)` of the stored tile is
  therefore `(∑ k, x[p, k] · kept(start[p], k) · W[q, k]) + bias[0, q]`.
-/
import proofs.«150696_j48430051230172_1_alg».proof.Proof.Gen.KernelIdeal.Skeleton
import proofs.«150696_j48430051230172_1_alg».proof.Proof.DroppedSpanSpec
import Idealize.ShloMosaic.PureOps.Ideal.Laws
import Idealize.ShloMosaic.Lib.Pipeline.Value
import Idealize.ShloMosaic.Lib.ValueIdx

noncomputable section

namespace Cert.KernelIdeal.TileValue

open Cert.KernelIdeal Cert.KernelIdeal.Gen Idealize.ShloMosaic Idealize.ShloMosaic.ValueIdx DroppedSpan

/-! ## The contraction's operand indices -/

/-- The left operand's row is the output's row. -/
theorem lhs_axis0 (i : S256x64.Idx) (c : dot_S256x4096_S64x4096_S256x64_1_1_0_0_n_n.contr.Idx) :
    (dot_S256x4096_S64x4096_S256x64_1_1_0_0_n_n.lhsIdx i c 0).val = (i 0).val := by
  unfold DotDims.lhsIdx
  rw [dif_neg (show ¬(0 : Fin S256x4096.rank) ∈ dot_S256x4096_S64x4096_S256x64_1_1_0_0_n_n.lhsBatch by decide), dif_pos (show (0 : Fin S256x4096.rank) ∈ dot_S256x4096_S64x4096_S256x64_1_1_0_0_n_n.lhsNonContracting by decide)]
  rfl
/-- Its channel is the contracted one. -/
theorem lhs_axis1 (i : S256x64.Idx) (c : dot_S256x4096_S64x4096_S256x64_1_1_0_0_n_n.contr.Idx) :
    (dot_S256x4096_S64x4096_S256x64_1_1_0_0_n_n.lhsIdx i c 1).val = (c ⟨0, by decide⟩).val :=
  dot_S256x4096_S64x4096_S256x64_1_1_0_0_n_n.lhsIdx_val_of_single rfl i c
/-- The right operand's row is the output's column. -/
theorem rhs_axis0 (i : S256x64.Idx) (c : dot_S256x4096_S64x4096_S256x64_1_1_0_0_n_n.contr.Idx) :
    (dot_S256x4096_S64x4096_S256x64_1_1_0_0_n_n.rhsIdx i c 0).val = (i 1).val := by
  unfold DotDims.rhsIdx
  rw [dif_neg (show ¬(0 : Fin S64x4096.rank) ∈ dot_S256x4096_S64x4096_S256x64_1_1_0_0_n_n.rhsBatch by decide), dif_pos (show (0 : Fin S64x4096.rank) ∈ dot_S256x4096_S64x4096_S256x64_1_1_0_0_n_n.rhsNonContracting by decide)]
  rfl
/-- Its channel is the contracted one. -/
theorem rhs_axis1 (i : S256x64.Idx) (c : dot_S256x4096_S64x4096_S256x64_1_1_0_0_n_n.contr.Idx) :
    (dot_S256x4096_S64x4096_S256x64_1_1_0_0_n_n.rhsIdx i c 1).val = (c ⟨0, by decide⟩).val :=
  dot_S256x4096_S64x4096_S256x64_1_1_0_0_n_n.rhsIdx_val_of_single rfl i c

/-- The product into a zero accumulator, at entry `(p, q)`: the sum over channels of row `p` of the left operand
    against row `q` of the right. -/
theorem product_apply (a : FVec Ideal S256x4096 .bf16) (w : FVec Ideal S64x4096 .bf16) (p : Fin 256) (q : Fin 64) :
    matmul dot_S256x4096_S64x4096_S256x64_1_1_0_0_n_n none a w (constant S256x64 .f32 0x00000000#32) (ix2 p q)
      = ∑ k : Fin 4096, a (ix2 p k) * w (ix2 q k) := by
  simp only [matmul]
  rw [Ideal.matmul_constant_zero_apply, ← Equiv.sum_comp (contrEquiv1 dot_S256x4096_S64x4096_S256x64_1_1_0_0_n_n 4096 rfl rfl).symm]
  refine Finset.sum_congr rfl fun k _ => ?_
  have hk := contrEquiv1_symm_val dot_S256x4096_S64x4096_S256x64_1_1_0_0_n_n 4096 rfl rfl k
  have el : dot_S256x4096_S64x4096_S256x64_1_1_0_0_n_n.lhsIdx (ix2 p q) ((contrEquiv1 dot_S256x4096_S64x4096_S256x64_1_1_0_0_n_n 4096 rfl rfl).symm k) = ix2 p k := funext fun d => Fin.ext (by
    match d with
    | ⟨0, _⟩ => exact lhs_axis0 _ _
    | ⟨1, _⟩ => exact (lhs_axis1 _ _).trans hk)
  have er : dot_S256x4096_S64x4096_S256x64_1_1_0_0_n_n.rhsIdx (ix2 p q) ((contrEquiv1 dot_S256x4096_S64x4096_S256x64_1_1_0_0_n_n 4096 rfl rfl).symm k) = ix2 q k := funext fun d => Fin.ext (by
    match d with
    | ⟨0, _⟩ => exact rhs_axis0 _ _
    | ⟨1, _⟩ => exact (rhs_axis1 _ _).trans hk)
  rw [el, er]

/-! ## The mask -/

/-- The channel number laid along a row: at `(p, k)` it is `k`. -/
theorem position_apply (p : Fin 256) (k : Fin 4096) :
    iota .tc S256x4096 32 [1] iota_S256x4096_d1_w32 (ix2 p k) = BitVec.ofNat 32 k.val := by
  show BitVec.ofNat 32 (0 * 4096 + k.val) = _
  rw [Nat.zero_mul, Nat.zero_add]

/-- A column of per-row words laid along the row: at `(p, k)` it is row `p`'s word. -/
theorem row_word_apply (v : IVec S256x1 32) (p : Fin 256) (k : Fin 4096) :
    broadcastTo S256x4096 v broadcasts_S256x1_S256x4096 (ix2 p k) = v (ix2 p (0 : Fin 1)) :=
  broadcastTo_apply v _ (ix2 p k) (ix2 p (0 : Fin 1)) (fun d => by
    match d with
    | ⟨0, _⟩ => show p.val = if (256 : Nat) = 1 then 0 else p.val; rw [if_neg (by decide)]
    | ⟨1, _⟩ => show 0 = if (1 : Nat) = 1 then 0 else k.val; rw [if_pos rfl])

/-- The converted, complemented mask at `(p, k)` is the keep factor of channel `k` for row `p`'s start word. -/
theorem keep_apply (v1 : Vec Ideal S256x1 .i32) (p : Fin 256) (k : Fin 4096) :
    (sitofp .f32 (extui 32 (xori (andi
        (cmpi .sge (iota .tc S256x4096 32 [1] iota_S256x4096_d1_w32) (broadcastTo S256x4096 v1 broadcasts_S256x1_S256x4096))
        (cmpi .slt (iota .tc S256x4096 32 [1] iota_S256x4096_d1_w32)
          (broadcastTo S256x4096 (addi v1 (broadcast S256x1 819#32)) broadcasts_S256x1_S256x4096)))
        (constantI S256x4096 1 1#1)) natLt_1_32) : FVec Ideal S256x4096 .f32) (ix2 p k)
      = kept (v1 (ix2 p (0 : Fin 1))) k.val := by
  show FloatOps.sitofp (F := Ideal) .f32 ((IntOp.xori (IntOp.andi
      (IntOp.cmpi .sge (iota .tc S256x4096 32 [1] iota_S256x4096_d1_w32 (ix2 p k)) (broadcastTo S256x4096 v1 broadcasts_S256x1_S256x4096 (ix2 p k)))
      (IntOp.cmpi .slt (iota .tc S256x4096 32 [1] iota_S256x4096_d1_w32 (ix2 p k))
        (broadcastTo S256x4096 (addi v1 (broadcast S256x1 819#32)) broadcasts_S256x1_S256x4096 (ix2 p k)))) 1#1).setWidth 32) = _
  rw [position_apply, row_word_apply, row_word_apply]
  exact kept_of_xor_widened _ _

/-! ## The bias row -/

/-- The one-row bias laid down the rows: at `(p, q)` it is entry `(0, q)`. -/
theorem bias_apply (v : FVec Ideal S1x64 .f32) (p : Fin 256) (q : Fin 64) :
    broadcastTo S256x64 (shapeCast S1x64 v shapeCasts_S1x64_S1x64) broadcasts_S1x64_S256x64 (ix2 p q) = v (ix2 (0 : Fin 1) q) := by
  rw [shapeCast_self]
  exact broadcastTo_apply v _ (ix2 p q) (ix2 (0 : Fin 1) q) (fun d => by
    match d with
    | ⟨0, _⟩ => show 0 = if (1 : Nat) = 1 then 0 else p.val; rw [if_pos rfl]
    | ⟨1, _⟩ => show q.val = if (64 : Nat) = 1 then 0 else q.val; rw [if_neg (by decide)])

/-! ## The stored tile -/

/-- Entry `(p, q)` of what the body stores, from the blocks it loaded: start words `st`, rows `xb`, weights `wb`,
    bias row `bb`. -/
theorem tile_apply (st : Vec Ideal S256x1 .i32) (xb : Vec Ideal S256x4096 .f32) (wb : Vec Ideal S64x4096 .f32)
    (bb : Vec Ideal S1x64 .f32) (p : Fin 256) (q : Fin 64) :
    k0_pay1 st xb wb bb (ix2 p q)
      = (∑ k : Fin 4096, xb (ix2 p k) * kept (st (ix2 p (0 : Fin 1))) k.val * wb (ix2 q k)) + bb (ix2 (0 : Fin 1) q) := by
  unfold k0_pay1
  dsimp only
  rw [addf_apply, product_apply, bias_apply]
  refine congrArg (· + bb (ix2 (0 : Fin 1) q)) (Finset.sum_congr rfl fun k _ => ?_)
  rw [truncf_apply, truncf_apply, mulf_apply, keep_apply]

end Cert.KernelIdeal.TileValue

end
-- ==== Proof.ArrayValue.lean ====
/-
  From tiles to the whole array.

  Grid point `t` holds rows `256·t … 256·t + 255` of `x` and of the start words, all of `W` and the bias row at every
  point, and writes back rows `256·t … 256·t + 255` of the result (all 64 columns). So the tile a point writes back is
  exactly that block of the masked linear map of the WHOLE argument arrays; the 64 blocks tile the 16384 rows, and the
  array after the run is the masked linear map. The bias row the body reads is the bias vector recast to one row by the
  host before the region: entry `(0, q)` of it is entry `q` of the vector.
-/
import proofs.«150696_j48430051230172_1_alg».proof.Proof.Gen.KernelIdeal.Value
import proofs.«150696_j48430051230172_1_alg».proof.Proof.TileValue
import Idealize.ShloMosaic.Lib.StableHlo.Run

set_option maxRecDepth 16384

noncomputable section

namespace Cert.KernelIdeal.ArrayValue

open Cert.KernelIdeal Cert.KernelIdeal.Gen Cert.KernelIdeal.TileValue Idealize.ShloMosaic Idealize.ShloMosaic.TcCoe Idealize.SL.Sem
open Idealize.ShloMosaic.ValueIdx DroppedSpan
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The bias row as the region finds it: the bias vector recast to one row. -/
theorem bias_row_eq (c : Dev nD) :
    (V m c main_v0 : S1x64.Idx → EReal) = shapeCast S1x64 (m ((c : Thread nD τ).loc main_arg2)) shapeCasts_S64_S1x64 := by
  dsimp only [Gen.V, Gen.hostOps0]
  after_results
  rfl

/-! ## Where each window's block sits -/

/-- The printed index maps over the 64 grid points: the rows of `x` and the start words move with the output's
    row block, `W` and the bias row stay at block zero, and every block has column index zero. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) ≤ 63 ∧ win0_4.index t (1 : Fin 2) = 0 :=
  (by decide +kernel : ∀ t : Fin grid0.N, _)

/-- Every row block of the output is some point's. -/
theorem row_block_onto : ∀ n : Fin 64, ∃ t : Fin cfg0.N, win0_4.index t = ![n.val, 0] :=
  (by decide +kernel : ∀ n : Fin 64, ∃ t : Fin grid0.N, win0_4.index t = ![n.val, 0])

/-! ## The blocks a point reads, as entries of the whole arrays -/

/-- Row `p` of the point's block of `x` is row `R` of `x`, where `R` is the output row of tile row `p`. -/
theorem rows_read (c : Dev nD) (t : Fin cfg0.N) (p : Fin 256) (k : Fin 4096) (R : Fin 16384)
    (hR : R.val = win0_4.index t (0 : Fin 2) * 256 + p.val) :
    iblk m c 0 t (ix2 p k) = V m c main_arg0 (ix2 R k) := by
  obtain ⟨e0, e1, -⟩ := block_indices t
  show V m c main_arg0 (((cfg0.win 0).blk t).view.emb (ix2 p k)) = V m c main_arg0 (ix2 R k)
  refine congrArg _ (funext fun a => Fin.ext ?_)
  match a with
  | ⟨0, _⟩ => show win0_0.index t (0 : Fin 2) * 256 + 1 * p.val = R.val; omega
  | ⟨1, _⟩ => show win0_0.index t (1 : Fin 2) * 4096 + 1 * k.val = k.val; omega

/-- The start word of tile row `p` is the start word of output row `R`. -/
theorem starts_read (c : Dev nD) (t : Fin cfg0.N) (p : Fin 256) (R : Fin 16384)
    (hR : R.val = win0_4.index t (0 : Fin 2) * 256 + p.val) :
    iblk m c 3 t (ix2 p (0 : Fin 1)) = V m c main_arg3 (ix2 R (0 : Fin 1)) := by
  obtain ⟨-, -, -, -, -, -, e6, e7, -⟩ := block_indices t
  show V m c main_arg3 (((cfg0.win 3).blk t).view.emb (ix2 p (0 : Fin 1))) = V m c main_arg3 (ix2 R (0 : Fin 1))
  refine congrArg _ (funext fun a => Fin.ext ?_)
  match a with
  | ⟨0, _⟩ => show win0_3.index t (0 : Fin 2) * 256 + 1 * p.val = R.val; omega
  | ⟨1, _⟩ => show win0_3.index t (1 : Fin 2) * 1 + 1 * 0 = 0; omega

/-- The point's block of `W` is all of `W`. -/
theorem weights_read (c : Dev nD) (t : Fin cfg0.N) (q : Fin 64) (k : Fin 4096) (Q : Fin 64) (hQ : Q.val = q.val) :
    iblk m c 1 t (ix2 q k) = V m c main_arg1 (ix2 Q k) := by
  obtain ⟨-, -, e2, e3, -⟩ := block_indices t
  show V m c main_arg1 (((cfg0.win 1).blk t).view.emb (ix2 q k)) = V m c main_arg1 (ix2 Q k)
  refine congrArg _ (funext fun a => Fin.ext ?_)
  match a with
  | ⟨0, _⟩ => show win0_1.index t (0 : Fin 2) * 64 + 1 * q.val = Q.val; omega
  | ⟨1, _⟩ => show win0_1.index t (1 : Fin 2) * 4096 + 1 * k.val = k.val; omega

/-- Entry `(0, q)` of the point's bias row is entry `q` of the bias vector. -/
theorem bias_read (c : Dev nD) (t : Fin cfg0.N) (q : Fin 64) (Q : Fin 64) (hQ : Q.val = q.val) :
    iblk m c 2 t (ix2 (0 : Fin 1) q) = m ((c : Thread nD τ).loc main_arg2) (ix1 Q) := by
  obtain ⟨-, -, -, -, e4, e5, -⟩ := block_indices t
  have hrow : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 64 + 1 * q.val = q.val; omega)
  show (V m c main_v0 : S1x64.Idx → EReal) (((cfg0.win 2).blk t).view.emb (ix2 (0 : Fin 1) q)) = _
  rw [hrow, bias_row_eq]
  exact shapeCast_apply _ shapeCasts_S64_S1x64 (ix2 (0 : Fin 1) q) (ix1 Q) (by
    rw [Shape.rowMajor_val_two, Shape.rowMajor_val_one]; show Q.val = 0 * 64 + q.val; omega)

/-! ## What a point writes back -/

/-- Entry `j` of the tile point `t` stores is the masked linear map of the whole arrays at the array index of `j`. -/
theorem tile_eq_block (c : Dev nD) (t : Fin cfg0.N) (j : S256x64.Idx) :
    k0_pay1 (iblk m c 3 t) (iblk m c 0 t) (iblk m c 1 t) (iblk m c 2 t) j
      = linear (V m c main_arg0) (V m c main_arg1) (m ((c : Thread nD τ).loc main_arg2)) (V m c main_arg3)
          (((cfg0.win 4).blk t).view.emb j) := by
  obtain ⟨p, q, rfl⟩ : ∃ (p : Fin 256) (q : Fin 64), j = ix2 p q := ⟨j 0, j 1, eq_ix2 j⟩
  refine (tile_apply (iblk m c 3 t) (iblk m c 0 t) (iblk m c 1 t) (iblk m c 2 t) p q).trans ?_
  obtain ⟨-, -, -, -, -, -, -, -, e8, e9⟩ := block_indices t
  have h0 : ((((cfg0.win 4).blk t).view.emb (ix2 p q)) 0).val = win0_4.index t (0 : Fin 2) * 256 + p.val := by
    show win0_4.index t (0 : Fin 2) * 256 + 1 * p.val = _; omega
  have h1 : ((((cfg0.win 4).blk t).view.emb (ix2 p q)) 1).val = q.val := by
    show win0_4.index t (1 : Fin 2) * 64 + 1 * q.val = _; omega
  unfold linear
  refine congrArg₂ (· + ·) (Finset.sum_congr rfl fun k _ => ?_) (bias_read m c t q _ h1)
  exact congrArg₂ (· * ·) (congrArg₂ (· * ·) (rows_read m c t p k _ h0)
    (congrArg (fun s => kept s k.val) (starts_read m c t p _ h0))) (weights_read m c t q k _ h1)

/-- WHAT POINT `t` WRITES BACK is block `t` of the masked linear map of the arrays as the region finds them. -/
theorem flushed_eq (c : Dev nD) (t : Fin cfg0.N) :
    (dats m 0 c).flushed 4 t = ((cfg0.win 4).blk t).view.read (Elt Ideal)
      (linear (V m c main_arg0) (V m c main_arg1) (m ((c : Thread nD τ).loc main_arg2)) (V m c main_arg3)) := by
  rw [Value.flushed4]
  unfold out0_4
  rw [View.canon_unit_zero zero_offsets]
  simp only [View.ld_unit_zero (S := S256x1) zero_offsets, View.ld_unit_zero (S := S256x4096) zero_offsets,
    View.ld_unit_zero (S := S64x4096) zero_offsets, View.ld_unit_zero (S := S1x64) zero_offsets]
  funext j
  exact tile_eq_block m c t j

/-! ## The blocks tile the rows -/

/-- An index of the result is in point `t`'s block iff each coordinate is in the block's range on its axis. -/
theorem mem_block (t : Fin cfg0.N) (i : S16384x64.Idx) :
    i ∈ ((cfg0.win 4).blk t).view.set ↔ ∀ a : Fin 2, win0_4.index t a * S256x64.size a ≤ (i a).val
      ∧ (i a).val < win0_4.index t a * S256x64.size a + S256x64.size a := by
  show i ∈ ((View.whole main_v1).slice (win0_4.rect t)).set ↔ _
  rw [View.set_slice_whole, Rect.mem_set_unit]
  exact Iff.rfl

/-- Row `r` of the result is written by the point whose row block is `r / 256`. -/
theorem covered (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  obtain ⟨t, ht⟩ := row_block_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 64 ≤ (i 1).val ∧ (i 1).val < win0_4.index t (1 : Fin 2) * 64 + 64; omega

/-! ## The array after the run -/

/-- THE RESULT ARRAY after the run is the masked linear map of the argument arrays as launched. -/
theorem final (c : Dev nD) :
    (dats m 0 c).arrAt 4 cfg0.N = linear (m ((c : Thread nD τ).loc main_arg0)) (m ((c : Thread nD τ).loc main_arg1))
      (m ((c : Thread nD τ).loc main_arg2)) (m ((c : Thread nD τ).loc main_arg3)) := by
  rw [(dats m 0 c).arrAt_eq_of_cover 4 _ (fun t _ => flushed_eq m c t) covered, V_main_arg0, V_main_arg1, V_main_arg3]

/-- The kernel's run with its result named: the masked linear map of the arguments, which end unchanged. -/
theorem run : θ_run defs (onTc (τ := τ) (main (F := Ideal))) ⟨m, fun _ => 0, ρ⟩ fun r => ∀ c : Dev nD,
      r.2.mem ((c : Thread nD τ).loc main_v1) = linear (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.ReferenceValue.lean ====
/-
  The reference's result is the masked linear map `DroppedSpan.linear` of its arguments, index by index.

  The reference lays positions `0 … 4095` along a third axis beside each row's start word, compares, takes the
  `or` over a middle axis of extent ONE (one span per row), complements, converts the bit, multiplies `x`, and
  contracts with the transpose of `W`. Read at an index: the middle axis contributes its single entry, the
  transpose swaps the two coordinates of `W`, and what is summed over channel `k` is
  `x[r, k] · kept(starts[r, 0], k) · W[j, k]`.
-/
import proofs.«150696_j48430051230172_1_alg».proof.Proof.Gen.ReferenceIdeal.Read
import proofs.«150696_j48430051230172_1_alg».proof.Proof.DroppedSpanSpec

noncomputable section

namespace Cert.ReferenceIdeal.RefValue

open Cert.ReferenceIdeal Cert.ReferenceIdeal.Gen Cert.ReferenceIdeal.Read Idealize.ShloMosaic Idealize.ShloMosaic.ValueIdx DroppedSpan

/-- The start word of row `r`, as each stage that reads it finds it: entry `(r, 0)` of the starts. -/
theorem start_idx (r : Fin 16384) (k : Fin 4096) :
    idx_main_v1 (idx_main_v4 (ix3 r (0 : Fin 1) k)) = ix2 r (0 : Fin 1) :=
  funext fun a => Fin.ext (by match a with | ⟨0, _⟩ => rfl | ⟨1, _⟩ => rfl)

/-- The compared mask at row `r`, channel `k` (middle coordinate `0`) is the dropped bit of that channel. -/
theorem mask_apply (x3 : (⟨S16384x1, .i32⟩ : BufTy).Contents (Elt Ideal)) (r : Fin 16384) (k : Fin 4096) :
    val_main_v12 (F := Ideal) x3 (ix3 r (0 : Fin 1) k) = dropped (x3 (ix2 r (0 : Fin 1))) k.val := by
  rw [val_main_v12_apply, val_main_v5_apply, val_main_v11_apply, val_main_v3_apply, val_main_v2_apply,
    val_main_v0_apply, val_main_v4_apply, val_main_v1_apply, val_main_v9_apply, val_main_v6_apply,
    val_main_v0_apply, val_main_v10_apply, val_main_v8_apply, val_main_v1_apply, val_main_v7_apply,
    val_main_c_apply, start_idx]
  rfl

/-- The middle axis has extent one. -/
theorem reduces_mid : S16384x1x4096.Reduces [1] S16384x4096 := by decide

/-- Over result index `(r, k)` the one source index of the `or` is `(r, 0, k)`. -/
theorem lift_mid (r : Fin 16384) (k : Fin 4096) (z : Fin (S16384x1x4096.size 1)) :
    reduces_mid.lift (ix2 r k) z = ix3 r (0 : Fin 1) k :=
  funext fun a => Fin.ext (by
    match a with
    | ⟨0, _⟩ => rfl
    | ⟨1, _⟩ => show z.val = 0; have := z.isLt; have e : z.val < 1 := this; omega
    | ⟨2, _⟩ => rfl)

/-- The `or` over the middle axis from `false` is the mask's single entry there. -/
theorem any_apply (x3 : (⟨S16384x1, .i32⟩ : BufTy).Contents (Elt Ideal)) (r : Fin 16384) (k : Fin 4096) :
    val_main_v13 (F := Ideal) x3 (ix2 r k) = dropped (x3 (ix2 r (0 : Fin 1))) k.val := by
  unfold val_main_v13
  rw [Host.reduce_eq_fold_single IntOp.ori _ _ reducesTo_S16384x1x4096_S16384x4096_d1 reduces_mid h_S_ (ix2 r k)]
  refine (or_fold_one _).trans ?_
  exact (congrArg (val_main_v12 (F := Ideal) x3) (lift_mid r k _)).trans (mask_apply x3 r k)

/-- The keep factor the reference multiplies `x[r, k]` by. -/
theorem keep_apply (x3 : (⟨S16384x1, .i32⟩ : BufTy).Contents (Elt Ideal)) (r : Fin 16384) (k : Fin 4096) :
    val_main_v15 (F := Ideal) x3 (ix2 r k) = kept (x3 (ix2 r (0 : Fin 1))) k.val := by
  rw [val_main_v15_apply, val_main_v14_apply, any_apply]
  exact kept_of_not _ _

/-- The contraction's left operand index at output `(r, j)`, channel `k`: `(r, k)`. -/
theorem lidx_eq (r : Fin 16384) (j : Fin 64) (k : Fin 4096) : lidx_main_v18 (ix2 r j) k = ix2 r k :=
  funext fun a => Fin.ext (by match a with | ⟨0, _⟩ => rfl | ⟨1, _⟩ => rfl)

/-- Its right operand index, through the transpose: entry `(j, k)` of `W`. -/
theorem ridx_eq (r : Fin 16384) (j : Fin 64) (k : Fin 4096) : idx_main_v17 (ridx_main_v18 (ix2 r j) k) = ix2 j k :=
  funext fun a => Fin.ext (by match a with | ⟨0, _⟩ => rfl | ⟨1, _⟩ => rfl)

/-- The bias index at output `(r, j)`: entry `j`. -/
theorem bias_idx_eq (r : Fin 16384) (j : Fin 64) : idx_main_v19 (idx_main_v20 (ix2 r j)) = ix1 j :=
  funext fun a => Fin.ext (by match a with | ⟨0, _⟩ => rfl)

/-- THE REFERENCE'S RESULT is the masked linear map of its arguments. -/
theorem result_eq (x0 : (⟨S16384x4096, .f32⟩ : BufTy).Contents (Elt Ideal)) (x1 : (⟨S64x4096, .f32⟩ : BufTy).Contents (Elt Ideal))
    (x2 : (⟨S64, .f32⟩ : BufTy).Contents (Elt Ideal)) (x3 : (⟨S16384x1, .i32⟩ : BufTy).Contents (Elt Ideal)) :
    val_main_v21 (F := Ideal) x0 x1 x2 x3 = linear x0 x1 x2 x3 := by
  funext i
  obtain ⟨r, j, rfl⟩ : ∃ (r : Fin 16384) (j : Fin 64), i = ix2 r j := ⟨i 0, i 1, eq_ix2 i⟩
  rw [val_main_v21_apply, val_main_v18_apply, val_main_v20_apply, val_main_v19_apply, bias_idx_eq]
  show (∑ k : Fin 4096, _) + x2 (ix1 j) = (∑ k : Fin 4096, _) + x2 (ix1 j)
  refine congrArg (· + x2 (ix1 j)) (Finset.sum_congr rfl fun k _ => ?_)
  rw [val_main_v16_apply, val_main_v17_apply, lidx_eq, ridx_eq, keep_apply]
  rfl

end Cert.ReferenceIdeal.RefValue

end
-- ==== Proof.lean ====
/-
  A linear layer over rows with one dropped span of channels: the tiled kernel against the whole-array reference.

  Both programs compute, for row `r` and class `j`,

      out[r, j] = (∑ k, x[r, k] · kept(starts[r, 0], k) · W[j, k]) + b[j],

  where `kept(s, k)` is `0` when `s ≤ k < s + 819` (signed 32-bit word comparisons, `s + 819` the word sum) and `1`
  otherwise (`DroppedSpan.linear`, Proof/DroppedSpanSpec.lean). The kernel does it 256 rows at a time: it complements
  the mask by exclusive-or with `true`, converts it by widening the bit to a word first, narrows both factors to bf16
  (the identity on the extended reals) and contracts into a zero accumulator (Proof/TileValue.lean); the 64 tiles are
  the 64 row blocks of the result (Proof/ArrayValue.lean). The reference builds the mask over a middle axis of extent
  one, takes the `or` over it, complements, converts the bit, and contracts `x · keep` with the transpose of `W`
  (Proof/ReferenceValue.lean). The summands agree term by term, so the two results are equal on the extended reals with
  no appeal to finiteness of the inputs; the precondition is never opened.

  The three frame claims are the programs' runs with the result forgotten; the idealization rewrote no operation, so
  `preserves` has nothing to state.
-/
import proofs.«150696_j48430051230172_1_alg».proof.Defs
import proofs.«150696_j48430051230172_1_alg».proof.Proof.Gen.Kernel
import proofs.«150696_j48430051230172_1_alg».proof.Proof.Gen.Kernel.Frame
import proofs.«150696_j48430051230172_1_alg».proof.Proof.Gen.KernelIdeal
import proofs.«150696_j48430051230172_1_alg».proof.Proof.Gen.KernelIdeal.Frame
import proofs.«150696_j48430051230172_1_alg».proof.Proof.Gen.KernelIdeal.Value
import proofs.«150696_j48430051230172_1_alg».proof.Proof.Gen.ReferenceIdeal
import proofs.«150696_j48430051230172_1_alg».proof.Proof.Gen.ReferenceIdeal.Run
import proofs.«150696_j48430051230172_1_alg».proof.Proof.Gen.ReferenceIdeal.Read
import proofs.«150696_j48430051230172_1_alg».proof.Proof.Gen.Pre_finite_inputs
import proofs.«150696_j48430051230172_1_alg».proof.Proof.ArrayValue
import proofs.«150696_j48430051230172_1_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the masked linear map of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v21_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
